-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S16384x1024 : Shape := ⟨2, ![16384, 1024]⟩
abbrev S4x1024x1024 : Shape := ⟨3, ![4, 1024, 1024]⟩
abbrev S4x1024 : Shape := ⟨2, ![4, 1024]⟩
abbrev S1024x4x1024 : Shape := ⟨3, ![1024, 4, 1024]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 17
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S1024x4x1024, .f32⟩
  | .hbm, ⟨8, _⟩ => ⟨S1024x4096, .f32⟩
  | .hbm, ⟨9, _⟩ => ⟨S1024x4096, .bf16⟩
  | .hbm, ⟨10, _⟩ => ⟨S1024x4x1024, .f32⟩
  | .hbm, ⟨11, _⟩ => ⟨S1024x4096, .f32⟩
  | .hbm, ⟨12, _⟩ => ⟨S1024x4096, .bf16⟩
  | .hbm, ⟨13, _⟩ => ⟨S1x4096, .f32⟩
  | .hbm, ⟨14, _⟩ => ⟨S1x4096, .f32⟩
  | .hbm, ⟨15, _⟩ => ⟨S16384x1024, .f32⟩
  | .hbm, ⟨16, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1x4096, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S4x1024x1024_S1024x4x1024_2_0_1 : S4x1024x1024.Transposes [2, 0, 1] S1024x4x1024
  shapeCasts_S1024x4x1024_S1024x4096 : S1024x4x1024.ShapeCasts S1024x4096
  bitsLt_bf16_f32 : FTy.bits .bf16 < FTy.bits .f32
  shapeCasts_S4x1024_S1x4096 : S4x1024.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4x1024x1024 : Shape := ⟨3, ![4, 1024, 1024]⟩
abbrev S4x1024 : Shape := ⟨2, ![4, 1024]⟩
abbrev S16384x4x1024 : Shape := ⟨3, ![16384, 4, 1024]⟩
abbrev S1x4x1024 : Shape := ⟨3, ![1, 4, 1024]⟩
abbrev S16384x1x1024 : Shape := ⟨3, ![16384, 1, 1024]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S16384x4x1024, .f32⟩
  | .hbm, ⟨8, _⟩ => ⟨S1x4x1024, .f32⟩
  | .hbm, ⟨9, _⟩ => ⟨S16384x4x1024, .f32⟩
  | .hbm, ⟨10, _⟩ => ⟨S16384x4x1024, .f32⟩
  | .hbm, ⟨11, _⟩ => ⟨S16384x4x1024, .f32⟩
  | .hbm, ⟨12, _⟩ => ⟨S16384x4x1024, .f32⟩
  | .hbm, ⟨13, _⟩ => ⟨S1x4x1024, .f32⟩
  | .hbm, ⟨14, _⟩ => ⟨S16384x4x1024, .f32⟩
  | .hbm, ⟨15, _⟩ => ⟨S16384x4x1024, .f32⟩
  | .hbm, ⟨16, _⟩ => ⟨S16384x1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x1024_S1x4x1024_1_2 : S4x1024.BroadcastsInDim S1x4x1024 (![1, 2] : Fin 2 → Fin S1x4x1024.rank)
  bcast_S1x4x1024_S16384x4x1024_0_1_2 : S1x4x1024.BroadcastsInDim S16384x4x1024 (![0, 1, 2] : Fin 3 → Fin S16384x4x1024.rank)
  slices_S16384x4x1024_S16384x1x1024_0_0_0 : S16384x4x1024.Slices ![0, 0, 0] S16384x1x1024
  shapeCasts_S16384x1x1024_S16384x1024 : S16384x1x1024.ShapeCasts S16384x1024
  bcast_S_S16384x1024 : S_.BroadcastsInDim S16384x1024 (![] : Fin 0 → Fin S16384x1024.rank)
  slices_S16384x4x1024_S16384x1x1024_0_1_0 : S16384x4x1024.Slices ![0, 1, 0] S16384x1x1024
  slices_S16384x4x1024_S16384x1x1024_0_2_0 : S16384x4x1024.Slices ![0, 2, 0] S16384x1x1024
  slices_S16384x4x1024_S16384x1x1024_0_3_0 : S16384x4x1024.Slices ![0, 3, 0] S16384x1x1024
  dot_S16384x1024_S4x1024x1024_S16384x4x1024_1_2_0_01_n_n_wf : DotDims.WF S16384x1024 S4x1024x1024 S16384x4x1024 [1] [2] [0] [0, 1] [] []

variable [Facts₀]

def dot_S16384x1024_S4x1024x1024_S16384x4x1024_1_2_0_01_n_n : DotDims S16384x1024 S4x1024x1024 S16384x4x1024 where
  lhsContracting := [1]
  rhsContracting := [2]
  lhsNonContracting := [0]
  rhsNonContracting := [0, 1]
  lhsBatch := []
  rhsBatch := []
  wf := dot_S16384x1024_S4x1024x1024_S16384x4x1024_1_2_0_01_n_n_wf

class Facts : Prop extends Facts₀ where

variable [Facts]
-- ==== Proof.LibPlainDot.lean ====
/-
  A plain matrix product read at a row and a column.

  For the dimension numbers "contract the left operand's columns with the right operand's rows, no batch axis"
  (`DotDims.plain M K N`), a `tpu.matmul` into an accumulator of zeros, read on the extended reals at row `p`
  and column `q`, is `Σₜ A[p, t] · B[t, q]` over `t : Fin K`: the accumulator contributes `0`, and the sum over
  the one-axis contraction index is re-indexed by that axis's coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The left operand's index at output `(p, q)` and contraction coordinate `t` is `(p, t)`. -/
theorem lhsIdx_eq (M K N : Nat) (p : Fin M) (q : Fin N) (t : Fin K) :
    (DotDims.plain M K N).lhsIdx (ix2 p q) ((contrEquiv1 (DotDims.plain M K N) K rfl rfl).symm t) = ix2 p t := by
  have hk := contrEquiv1_symm_val (DotDims.plain M K N) K rfl rfl t
  funext a
  apply Fin.ext
  match a with
  | ⟨0, _⟩ => rfl
  | ⟨1, _⟩ => exact ((DotDims.plain M K N).lhsIdx_val_of_single rfl (ix2 p q) _).trans hk

/-- The right operand's is `(t, q)`. -/
theorem rhsIdx_eq (M K N : Nat) (p : Fin M) (q : Fin N) (t : Fin K) :
    (DotDims.plain M K N).rhsIdx (ix2 p q) ((contrEquiv1 (DotDims.plain M K N) K rfl rfl).symm t) = ix2 t q := by
  have hk := contrEquiv1_symm_val (DotDims.plain M K N) K rfl rfl t
  funext a
  apply Fin.ext
  match a with
  | ⟨0, _⟩ => exact ((DotDims.plain M K N).rhsIdx_val_of_single rfl (ix2 p q) _).trans hk
  | ⟨1, _⟩ => rfl

/-- A plain `M × K` by `K × N` product into zeros, at row `p` and column `q`, is `Σₜ A[p, t] · B[t, q]`. -/
theorem matmul_zero_apply {φ₁ φ₂ : FTy} (M K N : Nat) (prec : Option ContractPrecision)
    (A : FVec Ideal ⟨2, ![M, K]⟩ φ₁) (B : FVec Ideal ⟨2, ![K, N]⟩ φ₂) (p : Fin M) (q : Fin N) :
    FloatOps.matmul (DotDims.plain M K N) prec A B (constant ⟨2, ![M, N]⟩ .f32 0x00000000#32) (ix2 p q)
      = ∑ t : Fin K, A (ix2 p t) * B (ix2 t q) := by
  rw [Ideal.matmul_constant_zero_apply, ← Equiv.sum_comp (contrEquiv1 (DotDims.plain M K N) K rfl rfl).symm]
  refine Finset.sum_congr rfl fun t _ => ?_
  rw [lhsIdx_eq, rhsIdx_eq]

end Idealize.ShloMosaic.PlainDot

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.KernelGates.lean ====
/-
  The kernel body's arithmetic, read at a row and a unit.

  One grid point works on a block of 256 batch rows. From the block's rows of the input and of the previous hidden
  state, the two 1024-by-4096 weight matrices (the four gates side by side, 1024 lanes each) and the two bias rows, the
  body forms the 256-by-4096 array of all four gates' pre-activations,
      Z[p, q] = Σₖ X[p, k] · W₁[k, q] + B₁[0, q] + Σₖ H[p, k] · W₂[k, q] + B₂[0, q],
  (each matrix product into an accumulator of zeros; the changes of float format are the identity on the extended reals)
  and cuts the gates out of it as the lane ranges 0…1023, 1024…2047, 2048…3071 and 3072…4095. The stored cell state is
  σ(Z[p, j]) · C[p, j] + σ(Z[p, j + 1024]) · tanh(Z[p, j + 3072])  and the stored hidden state
  σ(Z[p, j + 2048]) · tanh of that.
-/
import proofs.«136978_j19885698580623_1_alg».proof.Proof.Gen.KernelIdeal.Skeleton
import proofs.«136978_j19885698580623_1_alg».proof.Proof.LibPlainDot
import proofs.«136978_j19885698580623_1_alg».proof.Proof.LibMatrixReads
import Idealize.ShloMosaic.Lib.Pipeline.Value
import Idealize.ShloMosaic.Lib.ValueIdx

noncomputable section

open scoped BigOperators

namespace Cert.KernelIdeal.BlockValue

open Cert.KernelIdeal Cert.KernelIdeal.Gen Idealize.ShloMosaic Idealize.ShloMosaic.ValueIdx

variable (X H : Vec Ideal S256x1024 .f32) (W₁ W₂ : Vec Ideal S1024x4096 .bf16) (B₁ B₂ : Vec Ideal S1x4096 .f32)
  (C : Vec Ideal S256x1024 .f32)

/-- The block's pre-activation of row `p` at lane `q`, as a formula. -/
def preAt (p : Fin 256) (q : Fin 4096) : EReal :=
  (∑ k : Fin 1024, X (ix2 p k) * W₁ (ix2 k q)) + B₁ (ix2 (0 : Fin 1) q)
    + (∑ k : Fin 1024, H (ix2 p k) * W₂ (ix2 k q)) + B₂ (ix2 (0 : Fin 1) q)

/-- The body's matrix product: contract the left operand's columns with the right operand's rows. -/
theorem dot_eq : dot_S256x1024_S1024x4096_S256x4096_1_0_0_1_n_n = DotDims.plain 256 1024 4096 := rfl

/-- A product of a block's rows with a weight matrix, into zeros, at row `p` and lane `q`. -/
theorem product_apply (A : FVec Ideal S256x1024 .f32) (W : FVec Ideal S1024x4096 .bf16) (p : Fin 256) (q : Fin 4096) :
    matmul (F := Ideal) dot_S256x1024_S1024x4096_S256x4096_1_0_0_1_n_n none (truncf .bf16 A bitsLt_bf16_f32)
        (shapeCast (α := Ideal .bf16) S1024x4096 W shapeCasts_S1024x4096_S1024x4096) (constant (F := Ideal) S256x4096 .f32 0x00000000#32) (ix2 p q)
      = ∑ k : Fin 1024, A (ix2 p k) * W (ix2 k q) := by
  rw [shapeCast_self, dot_eq]
  exact PlainDot.matmul_zero_apply 256 1024 4096 none (truncf .bf16 A bitsLt_bf16_f32) W p q

/-- A bias row broadcast down the block's rows, at row `p` and lane `q`. -/
theorem biasRow_apply (B : FVec Ideal S1x4096 .f32) (p : Fin 256) (q : Fin 4096) :
    broadcastTo S256x4096 (shapeCast (α := Ideal .f32) S1x4096 B shapeCasts_S1x4096_S1x4096) broadcasts_S1x4096_S256x4096 (ix2 p q)
      = B (ix2 (0 : Fin 1) q) := by
  rw [shapeCast_self]
  exact MatrixReads.rowBroadcast_apply 256 4096 B _ p q

/-- The body's pre-activation array at row `p` and lane `q`. -/
theorem pay1_apply (p : Fin 256) (q : Fin 4096) :
    k0_pay1 (F := Ideal) X H W₁ W₂ B₁ B₂ (ix2 p q) = preAt X H W₁ W₂ B₁ B₂ p q := by
  unfold k0_pay1 preAt
  rw [addf_apply, addf_apply, addf_apply, product_apply, product_apply, biasRow_apply, biasRow_apply]

/-- Lane `j + off` of the pre-activation array, for a gate whose lanes start at `off`. -/
theorem gateSlice_apply (off : Nat) (hoff : off + 1024 ≤ 4096) (hs : S256x4096.Slices ![0, off] S256x1024) (p : Fin 256) (j : Fin 1024) :
    extractStridedSlice S256x1024 ![0, off] (k0_pay1 (F := Ideal) X H W₁ W₂ B₁ B₂) hs (ix2 p j)
      = preAt X H W₁ W₂ B₁ B₂ p ⟨j.val + off, by have := j.isLt; omega⟩ := by
  rw [← pay1_apply]
  exact MatrixReads.colSlice_apply 256 4096 1024 off _ hs p j _

/-- The stored cell state at row `p` and unit `j`. -/
theorem pay2_apply (p : Fin 256) (j : Fin 1024) :
    k0_pay2 (F := Ideal) X H W₁ W₂ B₁ B₂ C (ix2 p j)
      = Ideal.logistic (preAt X H W₁ W₂ B₁ B₂ p ⟨j.val + 0, by have := j.isLt; omega⟩) * C (ix2 p j)
        + Ideal.logistic (preAt X H W₁ W₂ B₁ B₂ p ⟨j.val + 1024, by have := j.isLt; omega⟩)
          * Ideal.tanh (preAt X H W₁ W₂ B₁ B₂ p ⟨j.val + 3072, by have := j.isLt; omega⟩) := by
  unfold k0_pay2
  show Ideal.logistic (extractStridedSlice S256x1024 ![0, 0] (k0_pay1 X H W₁ W₂ B₁ B₂) slices_S256x4096_o0_0_S256x1024 (ix2 p j)) * C (ix2 p j)
      + Ideal.logistic (extractStridedSlice S256x1024 ![0, 1024] (k0_pay1 X H W₁ W₂ B₁ B₂) slices_S256x4096_o0_1024_S256x1024 (ix2 p j))
        * Ideal.tanh (extractStridedSlice S256x1024 ![0, 3072] (k0_pay1 X H W₁ W₂ B₁ B₂) slices_S256x4096_o0_3072_S256x1024 (ix2 p j)) = _
  rw [gateSlice_apply X H W₁ W₂ B₁ B₂ 0 (by omega), gateSlice_apply X H W₁ W₂ B₁ B₂ 1024 (by omega),
    gateSlice_apply X H W₁ W₂ B₁ B₂ 3072 (by omega)]

/-- The stored hidden state at row `p` and unit `j`. -/
theorem pay3_apply (p : Fin 256) (j : Fin 1024) :
    k0_pay3 (F := Ideal) X H W₁ W₂ B₁ B₂ C (ix2 p j)
      = Ideal.logistic (preAt X H W₁ W₂ B₁ B₂ p ⟨j.val + 2048, by have := j.isLt; omega⟩)
        * Ideal.tanh (k0_pay2 (F := Ideal) X H W₁ W₂ B₁ B₂ C (ix2 p j)) := by
  unfold k0_pay3
  show Ideal.logistic (extractStridedSlice S256x1024 ![0, 2048] (k0_pay1 X H W₁ W₂ B₁ B₂) slices_S256x4096_o0_2048_S256x1024 (ix2 p j))
      * Ideal.tanh (k0_pay2 X H W₁ W₂ B₁ B₂ C (ix2 p j)) = _
  rw [gateSlice_apply X H W₁ W₂ B₁ B₂ 2048 (by omega)]

end Cert.KernelIdeal.BlockValue

end
-- ==== Proof.LstmSpec.lean ====
/-
  The LSTM cell, stated index by index on the extended reals.

  For a batch of 16384 rows and 1024 hidden units, with four gates (forget, input, output, candidate, in that order
  along the weights' leading axis): gate `g` of row `b` at unit `h` has the pre-activation
      z(b, g, h) = Σₖ x[b, k] · wi[g, h, k] + bi[g, h] + Σₖ h0[b, k] · wh[g, h, k] + bh[g, h],
  the sums over the 1024 input (respectively hidden) coordinates and the four terms added left to right. The new
  cell state is  σ(z(b,0,h)) · c0[b,h] + σ(z(b,1,h)) · tanh(z(b,3,h)),  and the new hidden state is
  σ(z(b,2,h)) · tanh(cell(b,h)),  with σ the logistic function  1 / (1 + e⁻ᵗ)  and every operation the exact one of the
  extended reals.
-/
import Idealize.ShloMosaic.PureOps.Ideal
import Idealize.ShloMosaic.Lib.ValueIdx

noncomputable section

open scoped BigOperators

namespace Cert.Lstm

open Idealize.ShloMosaic Idealize.ShloMosaic.ValueIdx

/-- A batch-by-unit matrix of extended reals. -/
abbrev Mat : Type := (⟨2, ![16384, 1024]⟩ : Shape).Idx → EReal
/-- The four gates' weights, gate by unit by contracted coordinate. -/
abbrev Wts : Type := (⟨3, ![4, 1024, 1024]⟩ : Shape).Idx → EReal
/-- The four gates' biases, gate by unit. -/
abbrev Bias : Type := (⟨2, ![4, 1024]⟩ : Shape).Idx → EReal

/-- Gate `g`'s pre-activation of row `b` at unit `h`: the input's product with the gate's input weights plus their bias,
    plus the previous hidden state's product with the gate's recurrent weights, plus their bias, added left to right. -/
def gatePre (x h0 : Mat) (wi : Wts) (bi : Bias) (wh : Wts) (bh : Bias) (b : Fin 16384) (g : Fin 4) (h : Fin 1024) : EReal :=
  (∑ k : Fin 1024, x (ix2 b k) * wi (ix3 g h k)) + bi (ix2 g h) + (∑ k : Fin 1024, h0 (ix2 b k) * wh (ix3 g h k)) + bh (ix2 g h)

/-- The new cell state of row `b` at unit `h`: forget gate times the old cell state plus input gate times candidate. -/
def cellAt (x h0 c0 : Mat) (wi : Wts) (bi : Bias) (wh : Wts) (bh : Bias) (b : Fin 16384) (h : Fin 1024) : EReal :=
  Ideal.logistic (gatePre x h0 wi bi wh bh b 0 h) * c0 (ix2 b h)
    + Ideal.logistic (gatePre x h0 wi bi wh bh b 1 h) * Ideal.tanh (gatePre x h0 wi bi wh bh b 3 h)

/-- The new hidden state of row `b` at unit `h`: output gate times the hyperbolic tangent of the new cell state. -/
def hiddenAt (x h0 c0 : Mat) (wi : Wts) (bi : Bias) (wh : Wts) (bh : Bias) (b : Fin 16384) (h : Fin 1024) : EReal :=
  Ideal.logistic (gatePre x h0 wi bi wh bh b 2 h) * Ideal.tanh (cellAt x h0 c0 wi bi wh bh b h)

/-- The new cell state as an array. -/
def cellArr (x h0 c0 : Mat) (wi : Wts) (bi : Bias) (wh : Wts) (bh : Bias) : Mat :=
  fun j => cellAt x h0 c0 wi bi wh bh (j 0) (j 1)

/-- The new hidden state as an array. -/
def hiddenArr (x h0 c0 : Mat) (wi : Wts) (bi : Bias) (wh : Wts) (bh : Bias) : Mat :=
  fun j => hiddenAt x h0 c0 wi bi wh bh (j 0) (j 1)

theorem cellArr_apply (x h0 c0 : Mat) (wi : Wts) (bi : Bias) (wh : Wts) (bh : Bias) (b : Fin 16384) (h : Fin 1024) :
    cellArr x h0 c0 wi bi wh bh (ix2 b h) = cellAt x h0 c0 wi bi wh bh b h := rfl

theorem hiddenArr_apply (x h0 c0 : Mat) (wi : Wts) (bi : Bias) (wh : Wts) (bh : Bias) (b : Fin 16384) (h : Fin 1024) :
    hiddenArr x h0 c0 wi bi wh bh (ix2 b h) = hiddenAt x h0 c0 wi bi wh bh b h := rfl

end Cert.Lstm

end
-- ==== Proof.BlockIsLstm.lean ====
/-
  One block of the kernel's output is a block of the LSTM cell.

  Suppose a grid point's blocks are read off the arrays so that row `p` of the input, hidden-state and cell-state
  blocks is row `r` of those arrays, the two weight matrices hold at row `k` and lane  g · 1024 + h  the weights
  wi[g, h, k] and wh[g, h, k], and the two bias rows hold there bi[g, h] and bh[g, h]. Then the block's pre-activation
  at row `p` and that lane is the specification's pre-activation of row `r`, gate `g`, unit `h` (the two sums are the
  same sums term by term), and so what the body stores at row `p` and unit `j` is the specification's new cell state
  and new hidden state of row `r` at unit `j`.
-/
import proofs.«136978_j19885698580623_1_alg».proof.Proof.KernelGates
import proofs.«136978_j19885698580623_1_alg».proof.Proof.LstmSpec

noncomputable section

open scoped BigOperators

namespace Cert.KernelIdeal.BlockValue

open Cert.KernelIdeal Cert.KernelIdeal.Gen Idealize.ShloMosaic Idealize.ShloMosaic.ValueIdx Cert.Lstm

variable (X H : Vec Ideal S256x1024 .f32) (W₁ W₂ : Vec Ideal S1024x4096 .bf16) (B₁ B₂ : Vec Ideal S1x4096 .f32)
  (C : Vec Ideal S256x1024 .f32)
  (x h0 c0 : Mat) (wi : Wts) (bi : Bias) (wh : Wts) (bh : Bias) (r : Fin 16384) (p : Fin 256)
  (hX : ∀ k : Fin 1024, X (ix2 p k) = x (ix2 r k)) (hH : ∀ k : Fin 1024, H (ix2 p k) = h0 (ix2 r k))
  (hW₁ : ∀ (k : Fin 1024) (g : Fin 4) (h : Fin 1024) (q : Fin 4096), q.val = g.val * 1024 + h.val → W₁ (ix2 k q) = wi (ix3 g h k))
  (hW₂ : ∀ (k : Fin 1024) (g : Fin 4) (h : Fin 1024) (q : Fin 4096), q.val = g.val * 1024 + h.val → W₂ (ix2 k q) = wh (ix3 g h k))
  (hB₁ : ∀ (g : Fin 4) (h : Fin 1024) (q : Fin 4096), q.val = g.val * 1024 + h.val → B₁ (ix2 (0 : Fin 1) q) = bi (ix2 g h))
  (hB₂ : ∀ (g : Fin 4) (h : Fin 1024) (q : Fin 4096), q.val = g.val * 1024 + h.val → B₂ (ix2 (0 : Fin 1) q) = bh (ix2 g h))

include hX hH hW₁ hW₂ hB₁ hB₂

/-- The block's pre-activation at the lane of gate `g`, unit `h` is the specification's. -/
theorem preAt_eq_gatePre (g : Fin 4) (h : Fin 1024) (q : Fin 4096) (hq : q.val = g.val * 1024 + h.val) :
    preAt X H W₁ W₂ B₁ B₂ p q = gatePre x h0 wi bi wh bh r g h := by
  unfold preAt gatePre
  rw [Finset.sum_congr rfl (fun k _ => by rw [hX k, hW₁ k g h q hq] : ∀ k ∈ Finset.univ, X (ix2 p k) * W₁ (ix2 k q) = x (ix2 r k) * wi (ix3 g h k)),
    Finset.sum_congr rfl (fun k _ => by rw [hH k, hW₂ k g h q hq] : ∀ k ∈ Finset.univ, H (ix2 p k) * W₂ (ix2 k q) = h0 (ix2 r k) * wh (ix3 g h k)),
    hB₁ g h q hq, hB₂ g h q hq]

/-- What the body stores as the cell state, at row `p` and unit `j`, is the new cell state of row `r` at unit `j`. -/
theorem cell_block (j : Fin 1024) (hC : C (ix2 p j) = c0 (ix2 r j)) :
    k0_pay2 (F := Ideal) X H W₁ W₂ B₁ B₂ C (ix2 p j) = cellAt x h0 c0 wi bi wh bh r j := by
  rw [pay2_apply,
    preAt_eq_gatePre X H W₁ W₂ B₁ B₂ x h0 wi bi wh bh r p hX hH hW₁ hW₂ hB₁ hB₂ 0 j _ (by show j.val + 0 = 0 * 1024 + j.val; omega),
    preAt_eq_gatePre X H W₁ W₂ B₁ B₂ x h0 wi bi wh bh r p hX hH hW₁ hW₂ hB₁ hB₂ 1 j _ (by show j.val + 1024 = 1 * 1024 + j.val; omega),
    preAt_eq_gatePre X H W₁ W₂ B₁ B₂ x h0 wi bi wh bh r p hX hH hW₁ hW₂ hB₁ hB₂ 3 j _ (by show j.val + 3072 = 3 * 1024 + j.val; omega),
    hC]
  rfl

/-- What the body stores as the hidden state, at row `p` and unit `j`, is the new hidden state of row `r` at unit `j`. -/
theorem hidden_block (j : Fin 1024) (hC : C (ix2 p j) = c0 (ix2 r j)) :
    k0_pay3 (F := Ideal) X H W₁ W₂ B₁ B₂ C (ix2 p j) = hiddenAt x h0 c0 wi bi wh bh r j := by
  rw [pay3_apply,
    preAt_eq_gatePre X H W₁ W₂ B₁ B₂ x h0 wi bi wh bh r p hX hH hW₁ hW₂ hB₁ hB₂ 2 j _ (by show j.val + 2048 = 2 * 1024 + j.val; omega),
    cell_block X H W₁ W₂ B₁ B₂ C x h0 c0 wi bi wh bh r p hX hH hW₁ hW₂ hB₁ hB₂ j hC]
  rfl

end Cert.KernelIdeal.BlockValue

end
-- ==== Proof.WeightLayout.lean ====
/-
  The weights and biases as the kernel is handed them.

  Before the kernel runs, each gate-by-unit-by-coordinate weight array is turned coordinate-first (axes reordered to
  coordinate, gate, unit), flattened to a 1024-by-4096 matrix whose lane  g · 1024 + h  belongs to gate `g` and unit
  `h`, and changed in float format (the identity on the extended reals); each gate-by-unit bias array is flattened to a
  single row of 4096 lanes laid out the same way. So the matrix at row `k` and lane  g · 1024 + h  is the weight
  w[g, h, k], and the bias row at that lane is b[g, h].
-/
import proofs.«136978_j19885698580623_1_alg».proof.Proof.Gen.KernelIdeal
import Idealize.ShloMosaic.Lib.Pipeline.Value
import Idealize.ShloMosaic.Lib.ValueIdx

noncomputable section

namespace Cert.KernelIdeal.WeightLayout

open Cert.KernelIdeal Cert.KernelIdeal.Gen Idealize.ShloMosaic Idealize.ShloMosaic.ValueIdx

/-- The coordinate-first, flattened weight matrix at row `k` and the lane of gate `g`, unit `h`. -/
theorem flatWeights_apply (w : FVec Ideal S4x1024x1024 .f32) (k : Fin 1024) (g : Fin 4) (h : Fin 1024) (q : Fin 4096)
    (hq : q.val = g.val * 1024 + h.val) :
    truncf (F := Ideal) .bf16
        (shapeCast (α := Ideal .f32) S1024x4096 (transpose S1024x4x1024 [2, 0, 1] w transposes_S4x1024x1024_S1024x4x1024_2_0_1)
          shapeCasts_S1024x4x1024_S1024x4096) bitsLt_bf16_f32 (ix2 k q)
      = w (ix3 g h k) := by
  show shapeCast (α := Ideal .f32) S1024x4096 (transpose S1024x4x1024 [2, 0, 1] w transposes_S4x1024x1024_S1024x4x1024_2_0_1)
      shapeCasts_S1024x4x1024_S1024x4096 (ix2 k q) = _
  refine (shapeCast_apply _ shapeCasts_S1024x4x1024_S1024x4096 (ix2 k q) (ix3 k g h) ?_).trans ?_
  · rw [Shape.rowMajor_val_three, Shape.rowMajor_val_two]
    show (k.val * 4 + g.val) * 1024 + h.val = k.val * 4096 + q.val
    omega
  · exact transpose_apply [2, 0, 1] w transposes_S4x1024x1024_S1024x4x1024_2_0_1 (ix3 k g h) (ix3 g h k)
      (fun b => match b with | ⟨0, _⟩ => rfl | ⟨1, _⟩ => rfl | ⟨2, _⟩ => rfl)

/-- The flattened bias row at the lane of gate `g`, unit `h`. -/
theorem flatBias_apply (b : FVec Ideal S4x1024 .f32) (g : Fin 4) (h : Fin 1024) (q : Fin 4096)
    (hq : q.val = g.val * 1024 + h.val) :
    shapeCast (α := Ideal .f32) S1x4096 b shapeCasts_S4x1024_S1x4096 (ix2 (0 : Fin 1) q) = b (ix2 g h) := by
  refine shapeCast_apply _ shapeCasts_S4x1024_S1x4096 (ix2 (0 : Fin 1) q) (ix2 g h) ?_
  rw [Shape.rowMajor_val_two, Shape.rowMajor_val_two]
  show g.val * 1024 + h.val = 0 * 4096 + q.val
  omega

end Cert.KernelIdeal.WeightLayout

end
-- ==== Proof.KernelArrays.lean ====
/-
  The kernel's two result arrays are the LSTM cell's.

  The grid has 64 points; point `t` works on batch rows  256·t … 256·t + 255: the input, hidden-state and cell-state
  windows and both output windows sit at block row `t`, while the weight matrices and bias rows are fetched whole. The
  weight matrices and bias rows are the arrays written before the kernel runs (coordinate-first, flattened; see the
  weight layout). Reading each block off its array, what point `t` writes back to the two outputs is block `t` of the
  specification's new hidden state and new cell state; the 64 blocks tile the 16384 rows, so after the run the two
  output arrays hold those functions of the seven arguments.
-/
import proofs.«136978_j19885698580623_1_alg».proof.Proof.Gen.KernelIdeal.Value
import proofs.«136978_j19885698580623_1_alg».proof.Proof.BlockIsLstm
import proofs.«136978_j19885698580623_1_alg».proof.Proof.WeightLayout
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.Lstm Cert.KernelIdeal.BlockValue Cert.KernelIdeal.WeightLayout
open Idealize.ShloMosaic.Pipeline (Dat)

variable (m : (ℓ : Loc nD τ sig) → Buf (Elt Ideal) ℓ) (ρ : Dev nD → PrngReg)

/-- Every load and store of the body is of a whole staging buffer, from offset zero. -/
theorem offsets_zero : (![0, 0] : Fin 2 → Nat) = fun _ => 0 := funext fun a => by fin_cases a <;> rfl

/-- The printed index maps, decided over the 64 grid points: the batch-tiled windows sit at block row `t`, block
    column 0; the weights and biases at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The arrays written before the kernel runs -/

theorem inputWeights_eq (c : Dev nD) : (V m c main_v2 : S1024x4096.Idx → EReal)
    = truncf (F := Ideal) .bf16 (shapeCast (α := Ideal .f32) S1024x4096 (transpose S1024x4x1024 [2, 0, 1]
        (m ((c : Thread nD τ).loc main_arg3)) transposes_S4x1024x1024_S1024x4x1024_2_0_1) shapeCasts_S1024x4x1024_S1024x4096) bitsLt_bf16_f32 := by
  dsimp only [Gen.V, Gen.hostOps0]; after_results; rfl

theorem recurrentWeights_eq (c : Dev nD) : (V m c main_v5 : S1024x4096.Idx → EReal)
    = truncf (F := Ideal) .bf16 (shapeCast (α := Ideal .f32) S1024x4096 (transpose S1024x4x1024 [2, 0, 1]
        (m ((c : Thread nD τ).loc main_arg5)) transposes_S4x1024x1024_S1024x4x1024_2_0_1) shapeCasts_S1024x4x1024_S1024x4096) bitsLt_bf16_f32 := by
  dsimp only [Gen.V, Gen.hostOps0]; after_results; rfl

theorem inputBias_eq (c : Dev nD) : (V m c main_v6 : S1x4096.Idx → EReal)
    = shapeCast (α := Ideal .f32) S1x4096 (m ((c : Thread nD τ).loc main_arg4)) shapeCasts_S4x1024_S1x4096 := by
  dsimp only [Gen.V, Gen.hostOps0]; after_results; rfl

theorem recurrentBias_eq (c : Dev nD) : (V m c main_v7 : S1x4096.Idx → EReal)
    = shapeCast (α := Ideal .f32) S1x4096 (m ((c : Thread nD τ).loc main_arg6)) shapeCasts_S4x1024_S1x4096 := by
  dsimp only [Gen.V, Gen.hostOps0]; after_results; rfl

/-! ## The blocks, read off the arrays -/

/-- Point `t`'s rows lie inside the batch. -/
theorem row_lt (t : Fin cfg0.N) (p : Fin 256) : t.val * 256 + p.val < 16384 := by
  have ht : t.val < 64 := lt_of_lt_of_eq t.isLt N_0
  have hp := p.isLt
  omega

/-- Row `p`, column `k` of a batch-tiled input block at point `t` is row  256·t + p  of its array. -/
theorem inputBlock_apply (c : Dev nD) (t : Fin cfg0.N) (p : Fin 256) (k : Fin 1024) :
    iblk m c 0 t (ix2 p k) = m ((c : Thread nD τ).loc main_arg0) (ix2 ⟨t.val * 256 + p.val, row_lt t p⟩ k) := by
  obtain ⟨e0, e1, -⟩ := index_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem hiddenBlock_apply (c : Dev nD) (t : Fin cfg0.N) (p : Fin 256) (k : Fin 1024) :
    iblk m c 1 t (ix2 p k) = m ((c : Thread nD τ).loc main_arg1) (ix2 ⟨t.val * 256 + p.val, row_lt t p⟩ k) := by
  obtain ⟨-, -, e0, e1, -⟩ := index_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

theorem cellBlock_apply (c : Dev nD) (t : Fin cfg0.N) (p : Fin 256) (k : Fin 1024) :
    iblk m c 2 t (ix2 p k) = m ((c : Thread nD τ).loc main_arg2) (ix2 ⟨t.val * 256 + p.val, row_lt t p⟩ k) := by
  obtain ⟨-, -, -, -, e0, e1, -⟩ := index_facts t
  show V m c main_arg2 (((cfg0.win 2).blk t).view.emb (ix2 p k)) = _
  rw [V_main_arg2]
  refine congrArg _ (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

/-- The input-weight window's block at any point is the whole coordinate-first matrix. -/
theorem inputWeightsBlock_apply (c : Dev nD) (t : Fin cfg0.N) (k : Fin 1024) (g : Fin 4) (h : Fin 1024) (q : Fin 4096)
    (hq : q.val = g.val * 1024 + h.val) :
    iblk m c 3 t (ix2 k q) = m ((c : Thread nD τ).loc main_arg3) (ix3 g h k) := by
  obtain ⟨-, -, -, -, -, -, e0, e1, -⟩ := index_facts t
  show V m c main_v2 (((cfg0.win 3).blk t).view.emb (ix2 k q)) = _
  have he : ((cfg0.win 3).blk t).view.emb (ix2 k q) = ix2 k q := funext fun a => Fin.ext (by
    match a with
    | ⟨0, _⟩ => show win0_3.index t (0 : Fin 2) * 1024 + 1 * k.val = k.val; omega
    | ⟨1, _⟩ => show win0_3.index t (1 : Fin 2) * 4096 + 1 * q.val = q.val; omega)
  rw [he, inputWeights_eq]
  exact flatWeights_apply _ k g h q hq

theorem recurrentWeightsBlock_apply (c : Dev nD) (t : Fin cfg0.N) (k : Fin 1024) (g : Fin 4) (h : Fin 1024) (q : Fin 4096)
    (hq : q.val = g.val * 1024 + h.val) :
    iblk m c 4 t (ix2 k q) = m ((c : Thread nD τ).loc main_arg5) (ix3 g h k) := by
  obtain ⟨-, -, -, -, -, -, -, -, e0, e1, -⟩ := index_facts t
  show V m c main_v5 (((cfg0.win 4).blk t).view.emb (ix2 k q)) = _
  have he : ((cfg0.win 4).blk t).view.emb (ix2 k q) = ix2 k q := funext fun a => Fin.ext (by
    match a with
    | ⟨0, _⟩ => show win0_4.index t (0 : Fin 2) * 1024 + 1 * k.val = k.val; omega
    | ⟨1, _⟩ => show win0_4.index t (1 : Fin 2) * 4096 + 1 * q.val = q.val; omega)
  rw [he, recurrentWeights_eq]
  exact flatWeights_apply _ k g h q hq

theorem inputBiasBlock_apply (c : Dev nD) (t : Fin cfg0.N) (g : Fin 4) (h : Fin 1024) (q : Fin 4096)
    (hq : q.val = g.val * 1024 + h.val) :
    iblk m c 5 t (ix2 (0 : Fin 1) q) = m ((c : Thread nD τ).loc main_arg4) (ix2 g h) := by
  obtain ⟨-, -, -, -, -, -, -, -, -, -, e0, e1, -⟩ := index_facts t
  show V m c main_v6 (((cfg0.win 5).blk t).view.emb (ix2 (0 : Fin 1) q)) = _
  have he : ((cfg0.win 5).blk t).view.emb (ix2 (0 : Fin 1) q) = ix2 (0 : Fin 1) q := funext fun a => Fin.ext (by
    match a with
    | ⟨0, _⟩ => show win0_5.index t (0 : Fin 2) * 1 + 1 * 0 = 0; omega
    | ⟨1, _⟩ => show win0_5.index t (1 : Fin 2) * 4096 + 1 * q.val = q.val; omega)
  rw [he, inputBias_eq]
  exact flatBias_apply _ g h q hq

theorem recurrentBiasBlock_apply (c : Dev nD) (t : Fin cfg0.N) (g : Fin 4) (h : Fin 1024) (q : Fin 4096)
    (hq : q.val = g.val * 1024 + h.val) :
    iblk m c 6 t (ix2 (0 : Fin 1) q) = m ((c : Thread nD τ).loc main_arg6) (ix2 g h) := by
  obtain ⟨-, -, -, -, -, -, -, -, -, -, -, -, e0, e1, -⟩ := index_facts t
  show V m c main_v7 (((cfg0.win 6).blk t).view.emb (ix2 (0 : Fin 1) q)) = _
  have he : ((cfg0.win 6).blk t).view.emb (ix2 (0 : Fin 1) q) = ix2 (0 : Fin 1) q := funext fun a => Fin.ext (by
    match a with
    | ⟨0, _⟩ => show win0_6.index t (0 : Fin 2) * 1 + 1 * 0 = 0; omega
    | ⟨1, _⟩ => show win0_6.index t (1 : Fin 2) * 4096 + 1 * q.val = q.val; omega)
  rw [he, recurrentBias_eq]
  exact flatBias_apply _ g h q hq

/-! ## What each point writes back -/

/-- The new hidden state of the seven arguments on core `c`. -/
abbrev hiddenOf (c : Dev nD) : Mat :=
  hiddenArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The new cell state of the seven arguments on core `c`. -/
abbrev cellOf (c : Dev nD) : Mat :=
  cellArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Point `t` writes back block `t` of the new cell state. -/
theorem flushedCell_eq (c : Dev nD) (t : Fin cfg0.N) :
    (dats m 0 c).flushed 8 t = ((cfg0.win 8).blk t).view.read (Elt Ideal) (cellOf m c) := by
  rw [Value.flushed8]
  unfold out0_8
  rw [View.canon_unit_zero offsets_zero]
  simp only [View.ld_unit_zero (S := S256x1024) offsets_zero, View.ld_unit_zero (S := S1024x4096) offsets_zero,
    View.ld_unit_zero (S := S1x4096) offsets_zero]
  obtain ⟨-, -, -, -, -, -, -, -, -, -, -, -, -, -, -, -, e0, e1⟩ := index_facts t
  funext y
  obtain ⟨p, j, rfl⟩ : ∃ (p : Fin 256) (j : Fin 1024), y = ix2 p j := ⟨y 0, y 1, eq_ix2 y⟩
  show k0_pay2 (F := Ideal) (iblk m c 0 t) (iblk m c 1 t) (iblk m c 3 t) (iblk m c 4 t) (iblk m c 5 t) (iblk m c 6 t) (iblk m c 2 t) (ix2 p j)
      = cellOf m c (((cfg0.win 8).blk t).view.emb (ix2 p j))
  have he : ((cfg0.win 8).blk t).view.emb (ix2 p j) = ix2 ⟨t.val * 256 + p.val, row_lt t p⟩ j := funext fun a => Fin.ext (by
    match a with
    | ⟨0, _⟩ => show win0_8.index t (0 : Fin 2) * 256 + 1 * p.val = t.val * 256 + p.val; omega
    | ⟨1, _⟩ => show win0_8.index t (1 : Fin 2) * 1024 + 1 * j.val = j.val; omega)
  rw [he]
  exact cell_block (iblk m c 0 t) (iblk m c 1 t) (iblk m c 3 t) (iblk m c 4 t) (iblk m c 5 t) (iblk m c 6 t) (iblk m c 2 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨t.val * 256 + p.val, row_lt t p⟩ p
    (fun k => inputBlock_apply m c t p k) (fun k => hiddenBlock_apply m c t p k)
    (fun k g h q hq => inputWeightsBlock_apply m c t k g h q hq) (fun k g h q hq => recurrentWeightsBlock_apply m c t k g h q hq)
    (fun g h q hq => inputBiasBlock_apply m c t g h q hq) (fun g h q hq => recurrentBiasBlock_apply m c t g h q hq)
    j (cellBlock_apply m c t p j)

/-- Point `t` writes back block `t` of the new hidden state. -/
theorem flushedHidden_eq (c : Dev nD) (t : Fin cfg0.N) :
    (dats m 0 c).flushed 7 t = ((cfg0.win 7).blk t).view.read (Elt Ideal) (hiddenOf m c) := by
  rw [Value.flushed7]
  unfold out0_7
  rw [View.canon_unit_zero offsets_zero]
  simp only [View.ld_unit_zero (S := S256x1024) offsets_zero, View.ld_unit_zero (S := S1024x4096) offsets_zero,
    View.ld_unit_zero (S := S1x4096) offsets_zero]
  obtain ⟨-, -, -, -, -, -, -, -, -, -, -, -, -, -, e0, e1, -⟩ := index_facts t
  funext y
  obtain ⟨p, j, rfl⟩ : ∃ (p : Fin 256) (j : Fin 1024), y = ix2 p j := ⟨y 0, y 1, eq_ix2 y⟩
  show k0_pay3 (F := Ideal) (iblk m c 0 t) (iblk m c 1 t) (iblk m c 3 t) (iblk m c 4 t) (iblk m c 5 t) (iblk m c 6 t) (iblk m c 2 t) (ix2 p j)
      = hiddenOf m c (((cfg0.win 7).blk t).view.emb (ix2 p j))
  have he : ((cfg0.win 7).blk t).view.emb (ix2 p j) = ix2 ⟨t.val * 256 + p.val, row_lt t p⟩ j := funext fun a => Fin.ext (by
    match a with
    | ⟨0, _⟩ => show win0_7.index t (0 : Fin 2) * 256 + 1 * p.val = t.val * 256 + p.val; omega
    | ⟨1, _⟩ => show win0_7.index t (1 : Fin 2) * 1024 + 1 * j.val = j.val; omega)
  rw [he]
  exact hidden_block (iblk m c 0 t) (iblk m c 1 t) (iblk m c 3 t) (iblk m c 4 t) (iblk m c 5 t) (iblk m c 6 t) (iblk m c 2 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨t.val * 256 + p.val, row_lt t p⟩ p
    (fun k => inputBlock_apply m c t p k) (fun k => hiddenBlock_apply m c t p k)
    (fun k g h q hq => inputWeightsBlock_apply m c t k g h q hq) (fun k g h q hq => recurrentWeightsBlock_apply m c t k g h q hq)
    (fun g h q hq => inputBiasBlock_apply m c t g h q hq) (fun g h q hq => recurrentBiasBlock_apply m c t g h q hq)
    j (cellBlock_apply m c t p j)

/-! ## The blocks tile the arrays -/

/-- An index of the hidden-state output is in point `t`'s block iff each coordinate is in the block's range. -/
theorem mem_hiddenBlock (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v8_0).slice (win0_7.rect t)).set ↔ _
  rw [View.set_slice_whole, Rect.mem_set_unit]
  exact Iff.rfl

/-- The same for the cell-state output. -/
theorem mem_cellBlock (t : Fin cfg0.N) (i : S16384x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v8_1).slice (win0_8.rect t)).set ↔ _
  rw [View.set_slice_whole, Rect.mem_set_unit]
  exact Iff.rfl

/-- The point whose block holds batch row `r`: `r / 256`. -/
def pointOf (i : S16384x1024.Idx) : Fin cfg0.N :=
  ⟨(i 0).val / 256, lt_of_lt_of_eq (by have h : (i 0).val < 16384 := (i 0).isLt; omega : (i 0).val / 256 < 64) N_0.symm⟩

theorem cover_hidden (i : S16384x1024.Idx) :
    ∃ t : Fin cfg0.N, (cfg0.win 7).flush t = true ∧ i ∈ ((cfg0.win 7).blk t).view.set := by
  refine ⟨pointOf i, flush0_7 _, ?_⟩
  rw [mem_hiddenBlock]
  obtain ⟨-, -, -, -, -, -, -, -, -, -, -, -, -, -, e0, e1, -⟩ := index_facts (pointOf i)
  have ht : (pointOf i).val = (i 0).val / 256 := rfl
  have h0 : (i 0).val < 16384 := (i 0).isLt
  have h1 : (i 1).val < 1024 := (i 1).isLt
  intro a
  match a with
  | ⟨0, _⟩ => show win0_7.index (pointOf i) (0 : Fin 2) * 256 ≤ (i 0).val ∧ (i 0).val < win0_7.index (pointOf i) (0 : Fin 2) * 256 + 256; omega
  | ⟨1, _⟩ => show win0_7.index (pointOf i) (1 : Fin 2) * 1024 ≤ (i 1).val ∧ (i 1).val < win0_7.index (pointOf i) (1 : Fin 2) * 1024 + 1024; omega

theorem cover_cell (i : S16384x1024.Idx) :
    ∃ t : Fin cfg0.N, (cfg0.win 8).flush t = true ∧ i ∈ ((cfg0.win 8).blk t).view.set := by
  refine ⟨pointOf i, flush0_8 _, ?_⟩
  rw [mem_cellBlock]
  obtain ⟨-, -, -, -, -, -, -, -, -, -, -, -, -, -, -, -, e0, e1⟩ := index_facts (pointOf i)
  have ht : (pointOf i).val = (i 0).val / 256 := rfl
  have h0 : (i 0).val < 16384 := (i 0).isLt
  have h1 : (i 1).val < 1024 := (i 1).isLt
  intro a
  match a with
  | ⟨0, _⟩ => show win0_8.index (pointOf i) (0 : Fin 2) * 256 ≤ (i 0).val ∧ (i 0).val < win0_8.index (pointOf i) (0 : Fin 2) * 256 + 256; omega
  | ⟨1, _⟩ => show win0_8.index (pointOf i) (1 : Fin 2) * 1024 ≤ (i 1).val ∧ (i 1).val < win0_8.index (pointOf i) (1 : Fin 2) * 1024 + 1024; omega

/-! ## The arrays after the run -/

theorem finalHidden (c : Dev nD) : (dats m 0 c).arrAt 7 cfg0.N = hiddenOf m c :=
  (dats m 0 c).arrAt_eq_of_cover 7 (hiddenOf m c) (fun t _ => flushedHidden_eq m c t) cover_hidden

theorem finalCell (c : Dev nD) : (dats m 0 c).arrAt 8 cfg0.N = cellOf m c :=
  (dats m 0 c).arrAt_eq_of_cover 8 (cellOf m c) (fun t _ => flushedCell_eq m c t) cover_cell

/-- The kernel's run: it terminates with the first result at the new hidden state and the second at the new cell state of
    the arguments, the arguments unchanged. -/
theorem run : θ_run defs (onTc (τ := τ) (main (F := Ideal))) ⟨m, fun _ => 0, ρ⟩ fun r => ∀ c : Dev nD,
      r.2.mem ((c : Thread nD τ).loc main_v8_0) = hiddenOf m c
      ∧ r.2.mem ((c : Thread nD τ).loc main_v8_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (finalHidden m c), (h c).2.1.trans (finalCell m c), (h c).2.2⟩)
    (Value.run_blocks m ρ)

end Cert.KernelIdeal.ArrayValue

end
-- ==== Proof.RefIsLstm.lean ====
/-
  The reference computes the LSTM cell.

  Read one operation at a time, the reference forms all four gates' pre-activations as one batch-by-gate-by-unit array
  (two contractions over the 1024 input coordinates, the two biases broadcast over the batch, the four terms added left
  to right), cuts gate `g` out as the slice at position `g` of the gate axis, applies to the first three gates the quotient
  1 / (1 + e⁻ᵗ), which on the extended reals is the logistic function, and to the fourth the hyperbolic tangent, and
  combines them with the old cell state. So its two results, at row `b` and unit `h`, are the new hidden state and the new
  cell state of the specification.
-/
import proofs.«136978_j19885698580623_1_alg».proof.Proof.Gen.ReferenceIdeal.Read
import proofs.«136978_j19885698580623_1_alg».proof.Proof.LstmSpec
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx Cert.Lstm

variable (x h0 c0 : Mat) (wi : Wts) (bi : Bias) (wh : Wts) (bh : Bias)

/-- The summed pre-activation array at row `b`, gate `g`, unit `h` is the specification's `gatePre`. -/
theorem preact_apply (b : Fin 16384) (g : Fin 4) (h : Fin 1024) :
    val_main_v8 (F := Ideal) x h0 wi bi wh bh (ix3 b g h) = gatePre x h0 wi bi wh bh b g h := by
  have l0 : ∀ k : Fin 1024, lidx_main_v0 (ix3 b g h) k = ix2 b k := fun k =>
    funext fun a => Fin.ext (by match a with | ⟨0, _⟩ => rfl | ⟨1, _⟩ => rfl)
  have r0 : ∀ k : Fin 1024, ridx_main_v0 (ix3 b g h) k = ix3 g h k := fun k =>
    funext fun a => Fin.ext (by match a with | ⟨0, _⟩ => rfl | ⟨1, _⟩ => rfl | ⟨2, _⟩ => rfl)
  have l4 : ∀ k : Fin 1024, lidx_main_v4 (ix3 b g h) k = ix2 b k := fun k =>
    funext fun a => Fin.ext (by match a with | ⟨0, _⟩ => rfl | ⟨1, _⟩ => rfl)
  have r4 : ∀ k : Fin 1024, ridx_main_v4 (ix3 b g h) k = ix3 g h k := fun k =>
    funext fun a => Fin.ext (by match a with | ⟨0, _⟩ => rfl | ⟨1, _⟩ => rfl | ⟨2, _⟩ => rfl)
  have b1 : idx_main_v1 (idx_main_v2 (ix3 b g h)) = ix2 g h :=
    funext fun a => Fin.ext (by match a with | ⟨0, _⟩ => rfl | ⟨1, _⟩ => rfl)
  have b6 : idx_main_v6 (idx_main_v7 (ix3 b g h)) = ix2 g h :=
    funext fun a => Fin.ext (by match a with | ⟨0, _⟩ => rfl | ⟨1, _⟩ => rfl)
  rw [val_main_v8_apply, val_main_v5_apply, val_main_v3_apply, val_main_v0_apply, val_main_v4_apply, val_main_v2_apply,
    val_main_v1_apply, val_main_v7_apply, val_main_v6_apply, b1, b6]
  simp only [l0, r0, l4, r4, Ideal.addf_def]
  rfl

/-- A slice at position `g` of the gate axis, with that axis then dropped, reads gate `g`. -/
theorem gate0_apply (b : Fin 16384) (h : Fin 1024) :
    val_main_v10 (F := Ideal) x h0 wi bi wh bh (ix2 b h) = gatePre x h0 wi bi wh bh b 0 h := by
  rw [val_main_v10_apply, val_main_v9_apply, ← preact_apply]
  refine congrArg _ (funext fun a => Fin.ext ?_)
  have hb := b.isLt; have hh := h.isLt
  match a with
  | ⟨0, _⟩ => show (b.val * 1024 + h.val) / 1024 = b.val; omega
  | ⟨1, _⟩ => rfl
  | ⟨2, _⟩ => show (b.val * 1024 + h.val) % 1024 = h.val; omega

theorem gate1_apply (b : Fin 16384) (h : Fin 1024) :
    val_main_v18 (F := Ideal) x h0 wi bi wh bh (ix2 b h) = gatePre x h0 wi bi wh bh b 1 h := by
  rw [val_main_v18_apply, val_main_v17_apply, ← preact_apply]
  refine congrArg _ (funext fun a => Fin.ext ?_)
  have hb := b.isLt; have hh := h.isLt
  match a with
  | ⟨0, _⟩ => show (b.val * 1024 + h.val) / 1024 = b.val; omega
  | ⟨1, _⟩ => rfl
  | ⟨2, _⟩ => show (b.val * 1024 + h.val) % 1024 = h.val; omega

theorem gate2_apply (b : Fin 16384) (h : Fin 1024) :
    val_main_v26 (F := Ideal) x h0 wi bi wh bh (ix2 b h) = gatePre x h0 wi bi wh bh b 2 h := by
  rw [val_main_v26_apply, val_main_v25_apply, ← preact_apply]
  refine congrArg _ (funext fun a => Fin.ext ?_)
  have hb := b.isLt; have hh := h.isLt
  match a with
  | ⟨0, _⟩ => show (b.val * 1024 + h.val) / 1024 = b.val; omega
  | ⟨1, _⟩ => rfl
  | ⟨2, _⟩ => show (b.val * 1024 + h.val) % 1024 = h.val; omega

theorem gate3_apply (b : Fin 16384) (h : Fin 1024) :
    val_main_v34 (F := Ideal) x h0 wi bi wh bh (ix2 b h) = gatePre x h0 wi bi wh bh b 3 h := by
  rw [val_main_v34_apply, val_main_v33_apply, ← preact_apply]
  refine congrArg _ (funext fun a => Fin.ext ?_)
  have hb := b.isLt; have hh := h.isLt
  match a with
  | ⟨0, _⟩ => show (b.val * 1024 + h.val) / 1024 = b.val; omega
  | ⟨1, _⟩ => rfl
  | ⟨2, _⟩ => show (b.val * 1024 + h.val) % 1024 = h.val; omega

/-- The quotient 1 / (1 + e⁻ᵗ), the one a float word of 1.0, is the logistic function. -/
theorem one_div_one_add_exp_neg (t : EReal) :
    Ideal.div (Ideal.ofBits .f32 0x3F800000#32) (Ideal.ofBits .f32 0x3F800000#32 + Ideal.exp (-t)) = Ideal.logistic t := by
  rw [Ideal.ofBits_one_f32]; rfl

/-- The forget gate. -/
theorem forget_apply (b : Fin 16384) (h : Fin 1024) :
    val_main_v16 (F := Ideal) x h0 wi bi wh bh (ix2 b h) = Ideal.logistic (gatePre x h0 wi bi wh bh b 0 h) := by
  rw [val_main_v16_apply, val_main_v15_apply, val_main_cst_0_apply, val_main_v14_apply, val_main_v13_apply, val_main_cst_apply,
    val_main_v12_apply, val_main_v11_apply, gate0_apply]
  exact one_div_one_add_exp_neg _

/-- The input gate. -/
theorem input_apply (b : Fin 16384) (h : Fin 1024) :
    val_main_v24 (F := Ideal) x h0 wi bi wh bh (ix2 b h) = Ideal.logistic (gatePre x h0 wi bi wh bh b 1 h) := by
  rw [val_main_v24_apply, val_main_v23_apply, val_main_cst_2_apply, val_main_v22_apply, val_main_v21_apply, val_main_cst_1_apply,
    val_main_v20_apply, val_main_v19_apply, gate1_apply]
  exact one_div_one_add_exp_neg _

/-- The output gate. -/
theorem output_apply (b : Fin 16384) (h : Fin 1024) :
    val_main_v32 (F := Ideal) x h0 wi bi wh bh (ix2 b h) = Ideal.logistic (gatePre x h0 wi bi wh bh b 2 h) := by
  rw [val_main_v32_apply, val_main_v31_apply, val_main_cst_4_apply, val_main_v30_apply, val_main_v29_apply, val_main_cst_3_apply,
    val_main_v28_apply, val_main_v27_apply, gate2_apply]
  exact one_div_one_add_exp_neg _

/-- The reference's second result is the new cell state. -/
theorem cell_apply (b : Fin 16384) (h : Fin 1024) :
    val_main_v38 (F := Ideal) x h0 c0 wi bi wh bh (ix2 b h) = cellAt x h0 c0 wi bi wh bh b h := by
  rw [val_main_v38_apply, val_main_v36_apply, val_main_v37_apply, val_main_v35_apply, forget_apply, input_apply, gate3_apply]
  rfl

/-- The reference's first result is the new hidden state. -/
theorem hidden_apply (b : Fin 16384) (h : Fin 1024) :
    val_main_v40 (F := Ideal) x h0 c0 wi bi wh bh (ix2 b h) = hiddenAt x h0 c0 wi bi wh bh b h := by
  rw [val_main_v40_apply, val_main_v39_apply, output_apply, cell_apply]
  rfl

theorem cell_eq : val_main_v38 (F := Ideal) x h0 c0 wi bi wh bh = cellArr x h0 c0 wi bi wh bh := by
  funext j
  obtain ⟨b, h, rfl⟩ : ∃ (b : Fin 16384) (h : Fin 1024), j = ix2 b h := ⟨j 0, j 1, eq_ix2 j⟩
  exact cell_apply x h0 c0 wi bi wh bh b h

theorem hidden_eq : val_main_v40 (F := Ideal) x h0 c0 wi bi wh bh = hiddenArr x h0 c0 wi bi wh bh := by
  funext j
  obtain ⟨b, h, rfl⟩ : ∃ (b : Fin 16384) (h : Fin 1024), j = ix2 b h := ⟨j 0, j 1, eq_ix2 j⟩
  exact hidden_apply x h0 c0 wi bi wh bh b h

end Cert.ReferenceIdeal.RefValue

end
-- ==== Proof.lean ====
/-
  An LSTM cell over a batch of 16384 rows with 1024 inputs and 1024 hidden units, computed by a kernel that tiles the
  batch into 64 blocks of 256 rows, against the same cell written with two contractions over all rows at once.

  Both programs compute, for every row `b` and unit `h`, the four gates' pre-activations
      z(b, g, h) = Σₖ x[b, k] · wi[g, h, k] + bi[g, h] + Σₖ h0[b, k] · wh[g, h, k] + bh[g, h]      (g = 0, 1, 2, 3),
  the new cell state  σ(z(b,0,h)) · c0[b,h] + σ(z(b,1,h)) · tanh(z(b,3,h))  and the new hidden state
  σ(z(b,2,h)) · tanh(new cell state).  The kernel lays the four gates side by side as 4096 lanes of one matrix product per
  operand (the weights reordered and flattened beforehand, lane  g · 1024 + h  for gate `g` and unit `h`) and uses the
  logistic function as one operation; the reference keeps the gate axis, slices it, and spells the logistic function as
  1 / (1 + e⁻ᵗ). On the extended reals the changes of float format are the identity, a matrix product into zeros is the
  plain sum of products, the sums on the two sides have the same terms in the same order, and the quotient is the logistic
  function by definition; so the results agree index by index, with no appeal to the inputs' finiteness.

  The modules: the specification (LstmSpec), the reference read as the specification (RefIsLstm), the kernel body's
  arithmetic at a row and a unit (KernelGates), a block of the kernel's output as a block of the specification
  (BlockIsLstm), the reordered weights and biases read at an index (WeightLayout), and the kernel's output arrays after
  the run (KernelArrays).
-/
import proofs.«136978_j19885698580623_1_alg».proof.Defs
import proofs.«136978_j19885698580623_1_alg».proof.Proof.Gen.Kernel
import proofs.«136978_j19885698580623_1_alg».proof.Proof.Gen.Kernel.Skeleton
import proofs.«136978_j19885698580623_1_alg».proof.Proof.Gen.Kernel.Launch
import proofs.«136978_j19885698580623_1_alg».proof.Proof.Gen.Kernel.Points
import proofs.«136978_j19885698580623_1_alg».proof.Proof.Gen.Kernel.Frame
import proofs.«136978_j19885698580623_1_alg».proof.Proof.Gen.KernelIdeal
import proofs.«136978_j19885698580623_1_alg».proof.Proof.Gen.KernelIdeal.Skeleton
import proofs.«136978_j19885698580623_1_alg».proof.Proof.Gen.KernelIdeal.Launch
import proofs.«136978_j19885698580623_1_alg».proof.Proof.Gen.KernelIdeal.Points
import proofs.«136978_j19885698580623_1_alg».proof.Proof.Gen.KernelIdeal.Frame
import proofs.«136978_j19885698580623_1_alg».proof.Proof.Gen.ReferenceIdeal
import proofs.«136978_j19885698580623_1_alg».proof.Proof.Gen.Pre_finite_inputs
import proofs.«136978_j19885698580623_1_alg».proof.Proof.Gen.KernelIdeal.Value
import proofs.«136978_j19885698580623_1_alg».proof.Proof.Gen.ReferenceIdeal.Run
import proofs.«136978_j19885698580623_1_alg».proof.Proof.Gen.ReferenceIdeal.Read
import proofs.«136978_j19885698580623_1_alg».proof.Proof.KernelArrays
import proofs.«136978_j19885698580623_1_alg».proof.Proof.RefIsLstm
import Idealize.ShloMosaic.Adequacy
import Idealize.ShloMosaic.Init

noncomputable section

namespace Cert.Proof

open Idealize.ShloMosaic Idealize.SL.Sem Cert.Kernel

/-- The kernel at the word level runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Nothing of the kernel was rewritten to read it on the extended reals. -/
theorem preserves : Cert.preserves_Kernel_KernelIdeal := trivial

/-- From memories agreeing on the seven arguments, the kernel's two output arrays end at the new hidden state and the new
    cell state of the arguments, and so do the reference's two results. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v40_eq, Cert.ReferenceIdeal.RefValue.hidden_eq,
      (hagree c).1, (hagree c).2.1, (hagree c).2.2.1, (hagree c).2.2.2.1, (hagree c).2.2.2.2.1, (hagree c).2.2.2.2.2.1,
      (hagree c).2.2.2.2.2.2]
  · show Cert.ReferenceIdeal.Read.val_main_v38 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) = _
    rw [Cert.ReferenceIdeal.RefValue.cell_eq,
      (hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
